-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x64x256 : Shape := ⟨3, ![6, 64, 256]⟩
abbrev S6x100000x256 : Shape := ⟨3, ![6, 100000, 256]⟩
abbrev S_ : Shape := ⟨0, ![]⟩

class Facts : Prop where
  bcast_S_S6x64x256 : S_.BroadcastsInDim S6x64x256 (![] : Fin 0 → Fin S6x64x256.rank)
  reducesTo_S6x64x256_S_d0_1_2 : S6x64x256.ReducesTo [0, 1, 2] S_
  h_S_ : 0 < S_.numel
  bcast_S_S6x100000x256 : S_.BroadcastsInDim S6x100000x256 (![] : Fin 0 → Fin S6x100000x256.rank)
  reducesTo_S6x100000x256_S_d0_1_2 : S6x100000x256.ReducesTo [0, 1, 2] S_

variable [Facts]

def fn {F : FTy → Type} [FloatOps F] (main_arg0 : FVec F S6x64x256 .f32) (main_arg1 : FVec F S6x100000x256 .f32) : IVec S_ 1 :=
  let main_v0 : FVec F S6x64x256 .f32 := Host.absf main_arg0
  let main_cst : FVec F S_ .f32 := constant S_ .f32 0x7F800000#32
  let main_v1 : FVec F S6x64x256 .f32 := broadcastInDim S6x64x256 ![] bcast_S_S6x64x256 main_cst
  let main_v2 : IVec S6x64x256 1 := cmpf .olt main_v0 main_v1
  let main_c : IVec S_ 1 := constantI S_ 1 1#1
  let main_v3 : IVec S_ 1 := (fun x v => Host.reduce IntOp.andi x v reducesTo_S6x64x256_S_d0_1_2 h_S_) main_v2 main_c
  let main_v4 : FVec F S6x100000x256 .f32 := Host.absf main_arg1
  let main_cst_0 : FVec F S_ .f32 := constant S_ .f32 0x7F800000#32
  let main_v5 : FVec F S6x100000x256 .f32 := broadcastInDim S6x100000x256 ![] bcast_S_S6x100000x256 main_cst_0
  let main_v6 : IVec S6x100000x256 1 := cmpf .olt main_v4 main_v5
  let main_c_1 : IVec S_ 1 := constantI S_ 1 1#1
  let main_v7 : IVec S_ 1 := (fun x v => Host.reduce IntOp.andi x v reducesTo_S6x100000x256_S_d0_1_2 h_S_) main_v6 main_c_1
  let main_v8 : IVec S_ 1 := andi main_v3 main_v7
  main_v8
-- ==== Kernel.lean ====
abbrev S6x64x256 : Shape := ⟨3, ![6, 64, 256]⟩
abbrev S6x100000x256 : Shape := ⟨3, ![6, 100000, 256]⟩
abbrev S6x64x100000 : Shape := ⟨3, ![6, 64, 100000]⟩
abbrev S1x64x256 : Shape := ⟨3, ![1, 64, 256]⟩
abbrev S1x2048x256 : Shape := ⟨3, ![1, 2048, 256]⟩
abbrev S1x64x2048 : Shape := ⟨3, ![1, 64, 2048]⟩
abbrev S64x256 : Shape := ⟨2, ![64, 256]⟩
abbrev S64 : Shape := ⟨1, ![64]⟩
abbrev S64x1 : Shape := ⟨2, ![64, 1]⟩
abbrev S2048x256 : Shape := ⟨2, ![2048, 256]⟩
abbrev S64x2048 : Shape := ⟨2, ![64, 2048]⟩

abbrev nBuf : Space → Nat
  | .hbm => 3
  | .vmem => 6
  | .smem => 0
  | _ => 0

abbrev bufTy : (tb : Table) → Fin (tcTables nBuf tb) → BufTy
  | .hbm, ⟨0, _⟩ => ⟨S6x64x256, .f32⟩
  | .hbm, ⟨1, _⟩ => ⟨S6x100000x256, .f32⟩
  | .hbm, ⟨2, _⟩ => ⟨S6x64x100000, .f32⟩
  | .local _ .vmem, ⟨0, _⟩ => ⟨S1x64x256, .f32⟩
  | .local _ .vmem, ⟨1, _⟩ => ⟨S1x64x256, .f32⟩
  | .local _ .vmem, ⟨2, _⟩ => ⟨S1x2048x256, .f32⟩
  | .local _ .vmem, ⟨3, _⟩ => ⟨S1x2048x256, .f32⟩
  | .local _ .vmem, ⟨4, _⟩ => ⟨S1x64x2048, .f32⟩
  | .local _ .vmem, ⟨5, _⟩ => ⟨S1x64x2048, .f32⟩
  | _, _ => ⟨S6x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 49], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  reduces_S64x256_S64 : S64x256.Reduces [1] S64
  shapeCasts_S64_S64x1 : S64.ShapeCasts S64x1
  broadcasts_S64x1_S64x256 : S64x1.Broadcasts S64x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  dot_S64x256_S2048x256_S64x2048_1_1_0_0_n_n_wf : DotDims.WF S64x256 S2048x256 S64x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256.size a ≤ S6x64x256.size a
  hwx0_0 : ∀ i : grid0.Coords, EltTy.bits .f32 = 32 ∨ (Rect.block (s := S6x64x256) S1x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x2048x256.size a < S6x100000x256.size a
  hwx0_1 : ∀ i : grid0.Coords, EltTy.bits .f32 = 32 ∨ (Rect.unit (s := S6x100000x256) (fun a => cc0_transform_1 i a * S1x2048x256.size a) (fun a => (Pipeline.Clip.of (cc0_transform_1 i a) (S1x2048x256.size a) (S6x100000x256.size a)).extent (S1x2048x256.size a)) fun a => Pipeline.Clip.inb (Pipeline.Clip.ok_of (hstart0_1 i a))).WholeWords (EltTy.packing .f32)
  hwxs0_1 : ∀ i : grid0.Coords, EltTy.bits .f32 = 32 ∨ (Rect.unit (s := S1x2048x256) (fun _ => 0) (fun a => (Pipeline.Clip.of (cc0_transform_1 i a) (S1x2048x256.size a) (S6x100000x256.size a)).extent (S1x2048x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x64x2048.size a < S6x64x100000.size a
  hwx0_2 : ∀ i : grid0.Coords, EltTy.bits .f32 = 32 ∨ (Rect.unit (s := S6x64x100000) (fun a => cc0_transform_2 i a * S1x64x2048.size a) (fun a => (Pipeline.Clip.of (cc0_transform_2 i a) (S1x64x2048.size a) (S6x64x100000.size a)).extent (S1x64x2048.size a)) fun a => Pipeline.Clip.inb (Pipeline.Clip.ok_of (hstart0_2 i a))).WholeWords (EltTy.packing .f32)
  hwxs0_2 : ∀ i : grid0.Coords, EltTy.bits .f32 = 32 ∨ (Rect.unit (s := S1x64x2048) (fun _ => 0) (fun a => (Pipeline.Clip.of (cc0_transform_2 i a) (S1x64x2048.size a) (S6x64x100000.size a)).extent (S1x64x2048.size a)) fun a => (Nat.zero_add _).trans_le (Pipeline.Clip.extent_le (Pipeline.Clip.ok_of (hstart0_2 i a)))).WholeWords (EltTy.packing .f32)

variable [Facts₀]

def dot_S64x256_S2048x256_S64x2048_1_1_0_0_n_n : DotDims S64x256 S2048x256 S64x2048 where
  lhsContracting := [1]
  rhsContracting := [1]
  lhsNonContracting := [0]
  rhsNonContracting := [0]
  lhsBatch := []
  rhsBatch := []
  wf := dot_S64x256_S2048x256_S64x2048_1_1_0_0_n_n_wf

abbrev win0_0 : Pipeline.Window sig grid0 :=
  Pipeline.Window.ofSpec (Memref.whole main_arg0) S1x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1x2048x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S1x64x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S6x64x256 : Shape := ⟨3, ![6, 64, 256]⟩
abbrev S6x100000x256 : Shape := ⟨3, ![6, 100000, 256]⟩
abbrev S_ : Shape := ⟨0, ![]⟩
abbrev S6x64 : Shape := ⟨2, ![6, 64]⟩
abbrev S6x64x1 : Shape := ⟨3, ![6, 64, 1]⟩
abbrev S6x64x100000 : Shape := ⟨3, ![6, 64, 100000]⟩

abbrev nBuf : Space → Nat
  | .hbm => 13
  | .vmem => 0
  | .smem => 0
  | _ => 0

abbrev bufTy : (tb : Table) → Fin (tcTables nBuf tb) → BufTy
  | .hbm, ⟨0, _⟩ => ⟨S6x64x256, .f32⟩
  | .hbm, ⟨1, _⟩ => ⟨S6x100000x256, .f32⟩
  | .hbm, ⟨2, _⟩ => ⟨S6x64x256, .f32⟩
  | .hbm, ⟨3, _⟩ => ⟨S_, .f32⟩
  | .hbm, ⟨4, _⟩ => ⟨S6x64, .f32⟩
  | .hbm, ⟨5, _⟩ => ⟨S6x64x1, .f32⟩
  | .hbm, ⟨6, _⟩ => ⟨S6x64x1, .f32⟩
  | .hbm, ⟨7, _⟩ => ⟨S_, .f32⟩
  | .hbm, ⟨8, _⟩ => ⟨S6x64x1, .f32⟩
  | .hbm, ⟨9, _⟩ => ⟨S6x64x1, .f32⟩
  | .hbm, ⟨10, _⟩ => ⟨S6x64x256, .f32⟩
  | .hbm, ⟨11, _⟩ => ⟨S6x64x256, .f32⟩
  | .hbm, ⟨12, _⟩ => ⟨S6x64x100000, .f32⟩
  | _, _ => ⟨S6x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  reducesTo_S6x64x256_S6x64_d2 : S6x64x256.ReducesTo [2] S6x64
  h_S_ : 0 < S_.numel
  bcast_S6x64_S6x64x1_0_1 : S6x64.BroadcastsInDim S6x64x1 (![0, 1] : Fin 2 → Fin S6x64x1.rank)
  bcast_S_S6x64x1 : S_.BroadcastsInDim S6x64x1 (![] : Fin 0 → Fin S6x64x1.rank)
  bcast_S6x64x1_S6x64x256_0_1_2 : S6x64x1.BroadcastsInDim S6x64x256 (![0, 1, 2] : Fin 3 → Fin S6x64x256.rank)
  dot_S6x64x256_S6x100000x256_S6x64x100000_2_2_1_1_0_0_wf : DotDims.WF S6x64x256 S6x100000x256 S6x64x100000 [2] [2] [1] [1] [0] [0]

variable [Facts₀]

def dot_S6x64x256_S6x100000x256_S6x64x100000_2_2_1_1_0_0 : DotDims S6x64x256 S6x100000x256 S6x64x100000 where
  lhsContracting := [2]
  rhsContracting := [2]
  lhsNonContracting := [1]
  rhsNonContracting := [1]
  lhsBatch := [0]
  rhsBatch := [0]
  wf := dot_S6x64x256_S6x100000x256_S6x64x100000_2_2_1_1_0_0_wf

class Facts : Prop extends Facts₀ where

variable [Facts]
-- ==== Proof.KernelBody.lean ====
/-
  One grid point of the similarity kernel, as a statement about three buffers.
  The body reads the whole feature tile (1 × 64 × 256) and the whole memory tile (1 × 2048 × 256), forms from them
  the 1 × 64 × 2048 tile of similarities (each feature row divided by the larger of its Euclidean norm and a small
  constant, then contracted with every memory row over the 256 features), and overwrites the whole result tile with it.
  So whatever the result tile held before, afterwards it holds that function of the two input tiles, and the input
  tiles are as they were. Nothing in this step depends on what the numbers are: it holds at every reading of floats.
-/
import proofs.«180536_g3410204033328_cont_8to1_b_1400_4_alg».proof.Proof.Gen.Kernel.Frame
import proofs.«180536_g3410204033328_cont_8to1_b_1400_4_alg».proof.Proof.Gen.Kernel.Skeleton
import Idealize.ShloMosaic.Lib.Pipeline.Frame
import Idealize.ShloMosaic.Lib.Exec.Geometry
import Idealize.ShloMosaic.Lib.Pipeline.Value

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole feature tile, the whole memory tile, the whole result tile: each access of the body is to all of its buffer. -/
abbrev rFeat : Rect S1x64x256 := Rect.unit (s := S1x64x256) ![0, 0, 0] S1x64x256.size inb_S1x64x256_S1x64x256_0_0_0
abbrev rMem : Rect S1x2048x256 := Rect.unit (s := S1x2048x256) ![0, 0, 0] S1x2048x256.size inb_S1x2048x256_S1x2048x256_0_0_0
abbrev rOut : Rect S1x64x2048 := Rect.unit (s := S1x64x2048) ![0, 0, 0] S1x64x2048.size inb_S1x64x2048_S1x64x2048_0_0_0

/-- What the result tile holds after the body: its one store, of the similarities of the two tiles read whole. -/
def simTile (x0 : Vec F S1x64x256 .f32) (x1 : Vec F S1x2048x256 .f32) : Vec F S1x64x2048 .f32 :=
  View.canon [⟨rOut, k0_pay1 (View.ld x0 rFeat) (View.ld x1 rMem)⟩]

/-- That store is to every index of the tile. -/
theorem cover_out (p0 : Vec F S1x64x2048 .f32) (y : S1x64x2048.Idx) :
    ∃ pc ∈ ([⟨rOut, p0⟩] : List (View.Piece (Elt F) S1x64x2048 .f32)), y ∈ pc.1.set :=
  View.cover_of_tiled [⟨rOut, p0⟩] S1x64x2048.size (by rfl) y

theorem hz3 : (![0, 0, 0] : Fin 3 → Nat) = fun _ => 0 := funext fun a => by fin_cases a <;> rfl

/-- The tile left is the similarity function of the two tiles themselves (whole reads, a whole store). -/
theorem simTile_eq (x0 : Vec F S1x64x256 .f32) (x1 : Vec F S1x2048x256 .f32) : simTile x0 x1 = k0_pay1 x0 x1 := by
  unfold simTile
  rw [View.canon_unit_zero hz3]
  simp only [View.ld_unit_zero (S := S1x64x256) hz3, View.ld_unit_zero (S := S1x2048x256) hz3]

set_option maxHeartbeats 1000000 in
/-- The body on three whole buffers — features at `x0`, memory at `x1`, the result at anything — ends with the first
    two as they were and the result at `simTile x0 x1`. -/
theorem sound_kernel (c : Dev nD) (E : Set ℕ) (i : grid0.Coords)
    (arg2 : Memref sig .tc .vmem S1x64x256 .f32) (harg2 : arg2.IsWhole)
    (arg3 : Memref sig .tc .vmem S1x2048x256 .f32) (harg3 : arg3.IsWhole)
    (arg4 : Memref sig .tc .vmem S1x64x2048 .f32) (harg4 : arg4.IsWhole)
    (x0 : Vec F S1x64x256 .f32) (x1 : Vec F S1x2048x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (simTile x0 x1)) -∗ K ⟨⟩))
      ⊢ wp frame (wpE (defs₀ (F := F)) Variants.none c none) E (cc0__sims_body i arg2 harg2 arg3 harg3 arg4 harg4) K := by
  simp only [cc0__sims_body_eq_skeleton]; unfold cc0__sims_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

end Cert.Kernel.Tile

end
-- ==== Proof.KernelFrame.lean ====
/-
  The similarity kernel runs to its end and leaves its two argument arrays as they were, at every reading of floats.
  The pipeline fetches the feature tile and the memory tile of each grid point into staging buffers, runs the body,
  and writes the result tile back; the last memory tile and the last result tile of each part reach past the end of
  their arrays (100000 rows in tiles of 2048), so only their leading 352 rows or columns are moved, and the rest of
  the memory staging buffer then holds numbers nothing names. For the frame none of that matters: the body only
  needs each staging buffer to hold SOMETHING (it loads two of them whole and overwrites the third whole), and an
  argument array is only ever read. So the proof data relate what the body finds in a buffer to what it leaves
  there by the relation that always holds.
-/
import proofs.«180536_g3410204033328_cont_8to1_b_1400_4_alg».proof.Proof.KernelBody

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the frame: the arrays as the region finds them; of what the body leaves in a staging buffer,
    nothing is said. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body at point `t`, handed its three current staging buffers at any contents, hands them back at some contents. -/
theorem sound_bodyR (c : Dev nD) (t : Fin cfg0.N) (Y : (w : Fin cfg0.W) → (cfg0.win w).block.Idx → Elt F (cfg0.win w).elt) :
    iprop((rdats m c).Φ t.castSucc ∗ (rdats m c).owesAt () t.castSucc
        ∗ owns (c : Thread nD τ) (st0_0 t) fullShare (Y 0) ∗ owns (c : Thread nD τ) (st0_1 t) fullShare (Y 1) ∗ owns (c : Thread nD τ) (st0_2 t) fullShare (Y 2))
      ⊢ wp frame (wpE (defs₀ (F := F)) Variants.none c none) Set.univ (bodyAt0 t) (fun _ =>
          iprop((rdats m c).Φ t.succ ∗ (rdats m c).owesAt () t.succ
            ∗ (∃ X, ⌜(rdats m c).after 0 t (Y 0) X⌝ ∗ owns (c : Thread nD τ) (st0_0 t) fullShare X)
            ∗ (∃ X, ⌜(rdats m c).after 1 t (Y 1) X⌝ ∗ owns (c : Thread nD τ) (st0_1 t) fullShare X)
            ∗ (∃ X, ⌜(rdats m c).after 2 t (Y 2) X⌝ ∗ owns (c : Thread nD τ) (st0_2 t) fullShare X))) := by
  unfold bodyAt0
  rw [show (rdats m c).Φ t.succ = (rdats m c).Φ t.castSucc from rfl,
    show (rdats m c).owesAt () t.succ = (rdats m c).owesAt () t.castSucc from rfl]
  iintro ⟨HΦ, Ho, H0, H1, H2⟩
  iapply (sound_kernel c Set.univ (grid0.coords t) _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  · iexists (simTile (Y 0) (Y 1)); isplitr; · ipureintro; trivial
    iexact H2

theorem body_obligationR (c : Dev nD) : (rdats m c).BodyObligation (defs₀ (F := F)) Variants.none () Set.univ := fun t Y _ => by
  rw [bigSep_W0, bigSep_W0]
  exact sound_bodyR m c t Y

theorem shareR (c : Dev nD) (w : Fin cfg0.W) : (rdats m c).share w = fullShare := by
  unfold RDat.share; split <;> rfl

set_option backward.isDefEq.respectTransparency.types false in
/-- Every weakly fair execution of @main ends, nothing faulting, every array of the pipeline at contents the
    write-backs may have left: for the two argument arrays, which nothing writes, their launch contents. -/
theorem run_frame : θ_run defs (onTc (τ := τ) (main (F := F))) (s₀ m ρ) (RDat.FramePost cfg0 (rdats m) (V m)) :=
  RDat.θ_run_frame cfgs (0 : Fin 1) launch0 defs₀ Variants.none (rdats m) m ρ main
    (hbody := body_obligationR m) (hshare := shareR m)
    (howed := fun _ _ => rfl) (V := V m) (hmain := hmain m Variants.none) (hA := fun _ _ => rfl) (hΦ := fun _ _ => rfl)

/-- The frame: @main runs to its end and the features and the memory bank are unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(RDat.FramePost.arr_in h c (0 : Fin 3) rfl).trans (V_main_arg0 m c),
      (RDat.FramePost.arr_in h c (1 : Fin 3) rfl).trans (V_main_arg1 m c)⟩) (run_frame m ρ)

end Cert.Kernel.Tile

end
-- ==== Proof.KernelIdealBody.lean ====
/-
  One grid point of the similarity kernel, as a statement about three buffers.
  The body reads the whole feature tile (1 × 64 × 256) and the whole memory tile (1 × 2048 × 256), forms from them
  the 1 × 64 × 2048 tile of similarities (each feature row divided by the larger of its Euclidean norm and a small
  constant, then contracted with every memory row over the 256 features), and overwrites the whole result tile with it.
  So whatever the result tile held before, afterwards it holds that function of the two input tiles, and the input
  tiles are as they were. Nothing in this step depends on what the numbers are: it holds at every reading of floats.
-/
import proofs.«180536_g3410204033328_cont_8to1_b_1400_4_alg».proof.Proof.Gen.KernelIdeal.Frame
import proofs.«180536_g3410204033328_cont_8to1_b_1400_4_alg».proof.Proof.Gen.KernelIdeal.Skeleton
import Idealize.ShloMosaic.Lib.Pipeline.Frame
import Idealize.ShloMosaic.Lib.Exec.Geometry
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole feature tile, the whole memory tile, the whole result tile: each access of the body is to all of its buffer. -/
abbrev rFeat : Rect S1x64x256 := Rect.unit (s := S1x64x256) ![0, 0, 0] S1x64x256.size inb_S1x64x256_S1x64x256_0_0_0
abbrev rMem : Rect S1x2048x256 := Rect.unit (s := S1x2048x256) ![0, 0, 0] S1x2048x256.size inb_S1x2048x256_S1x2048x256_0_0_0
abbrev rOut : Rect S1x64x2048 := Rect.unit (s := S1x64x2048) ![0, 0, 0] S1x64x2048.size inb_S1x64x2048_S1x64x2048_0_0_0

/-- What the result tile holds after the body: its one store, of the similarities of the two tiles read whole. -/
def simTile (x0 : Vec F S1x64x256 .f32) (x1 : Vec F S1x2048x256 .f32) : Vec F S1x64x2048 .f32 :=
  View.canon [⟨rOut, k0_pay1 (View.ld x0 rFeat) (View.ld x1 rMem)⟩]

/-- That store is to every index of the tile. -/
theorem cover_out (p0 : Vec F S1x64x2048 .f32) (y : S1x64x2048.Idx) :
    ∃ pc ∈ ([⟨rOut, p0⟩] : List (View.Piece (Elt F) S1x64x2048 .f32)), y ∈ pc.1.set :=
  View.cover_of_tiled [⟨rOut, p0⟩] S1x64x2048.size (by rfl) y

theorem hz3 : (![0, 0, 0] : Fin 3 → Nat) = fun _ => 0 := funext fun a => by fin_cases a <;> rfl

/-- The tile left is the similarity function of the two tiles themselves (whole reads, a whole store). -/
theorem simTile_eq (x0 : Vec F S1x64x256 .f32) (x1 : Vec F S1x2048x256 .f32) : simTile x0 x1 = k0_pay1 x0 x1 := by
  unfold simTile
  rw [View.canon_unit_zero hz3]
  simp only [View.ld_unit_zero (S := S1x64x256) hz3, View.ld_unit_zero (S := S1x2048x256) hz3]

set_option maxHeartbeats 1000000 in
/-- The body on three whole buffers — features at `x0`, memory at `x1`, the result at anything — ends with the first
    two as they were and the result at `simTile x0 x1`. -/
theorem sound_kernel (c : Dev nD) (E : Set ℕ) (i : grid0.Coords)
    (arg2 : Memref sig .tc .vmem S1x64x256 .f32) (harg2 : arg2.IsWhole)
    (arg3 : Memref sig .tc .vmem S1x2048x256 .f32) (harg3 : arg3.IsWhole)
    (arg4 : Memref sig .tc .vmem S1x64x2048 .f32) (harg4 : arg4.IsWhole)
    (x0 : Vec F S1x64x256 .f32) (x1 : Vec F S1x2048x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (simTile x0 x1)) -∗ K ⟨⟩))
      ⊢ wp frame (wpE (defs₀ (F := F)) Variants.none c none) E (cc0__sims_body i arg2 harg2 arg3 harg3 arg4 harg4) K := by
  simp only [cc0__sims_body_eq_skeleton]; unfold cc0__sims_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

end Cert.KernelIdeal.Tile

end
-- ==== Proof.CosineSpec.lean ====
/-
  The quantity both programs compute, as one function of the two argument arrays.
  For part k, batch row b and memory row n the similarity is the inner product, over the 256 features, of the
  feature row f[k, b, ·] scaled to unit length with the memory row mem[k, n, ·]. "Scaled to unit length" divides the
  row by the larger of its Euclidean length and a small positive constant (the single-precision number nearest
  1e-12), so that a zero row stays zero. Numbers are extended reals and every operation is the exact one.
-/
import Idealize.ShloMosaic.PureOps.Ideal
import Idealize.ShloMosaic.Lib.ValueIdx

noncomputable section

namespace Cert.Cosine

open Idealize.ShloMosaic Idealize.ShloMosaic.ValueIdx

/-- The floor under a row's length. -/
abbrev lenFloor : EReal := Ideal.ofBits .f32 0x2B8CBCCC#32

/-- The squared Euclidean length of a row of 256 numbers. -/
def sqLen (row : Fin 256 → EReal) : EReal := ∑ d : Fin 256, row d * row d

/-- A row divided by the larger of its length and the floor. -/
def unitRow (row : Fin 256 → EReal) (d : Fin 256) : EReal :=
  Ideal.div (row d) (max (Ideal.sqrt (sqLen row)) lenFloor)

/-- The inner product of the unit-length version of one row with another row. -/
def cosRow (row mrow : Fin 256 → EReal) : EReal := ∑ d : Fin 256, unitRow row d * mrow d

/-- Feature row (k, b) of the feature array. -/
abbrev featRow (f : (⟨3, ![6, 64, 256]⟩ : Shape).Idx → EReal) (k : Fin 6) (b : Fin 64) : Fin 256 → EReal :=
  fun d => f (ix3 k b d)

/-- Memory row (k, n) of the memory bank. -/
abbrev memRow (mem : (⟨3, ![6, 100000, 256]⟩ : Shape).Idx → EReal) (k : Fin 6) (n : Fin 100000) : Fin 256 → EReal :=
  fun d => mem (ix3 k n d)

/-- All similarities: entry (k, b, n) pairs feature row (k, b) with memory row (k, n). -/
def sims (f : (⟨3, ![6, 64, 256]⟩ : Shape).Idx → EReal) (mem : (⟨3, ![6, 100000, 256]⟩ : Shape).Idx → EReal) :
    (⟨3, ![6, 64, 100000]⟩ : Shape).Idx → EReal :=
  fun i => cosRow (featRow f (i 0) (i 1)) (memRow mem (i 0) (i 2))

/-- The similarity depends on the two rows only through their entries. -/
theorem cosRow_congr {row row' mrow mrow' : Fin 256 → EReal} (h : ∀ d, row d = row' d) (h' : ∀ d, mrow d = mrow' d) :
    cosRow row mrow = cosRow row' mrow' := by
  rw [show row = row' from funext h, show mrow = mrow' from funext h']

end Cert.Cosine

end
-- ==== Proof.TileSims.lean ====
/-
  One tile of similarities, entry by entry.
  From a feature tile x0 (1 × 64 × 256) and a memory tile x1 (1 × 2048 × 256) the body forms a 1 × 64 × 2048 tile.
  Its entry (0, b, n) is the similarity of row b of x0 with row n of x1: row b's squares are summed along the
  lanes, the root of the sum is compared with the floor, every entry of the row is divided by the larger of the two,
  and the matrix unit contracts the scaled row with row n over the 256 features, starting from zero. Nothing of any
  OTHER row of x1 enters entry (0, b, n): a row of the memory tile that holds numbers of unknown origin spoils only
  its own column of the result.
-/
import proofs.«180536_g3410204033328_cont_8to1_b_1400_4_alg».proof.Proof.Gen.KernelIdeal.Skeleton
import proofs.«180536_g3410204033328_cont_8to1_b_1400_4_alg».proof.Proof.CosineSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileSims

open Cert.KernelIdeal Cert.KernelIdeal.Gen Cert.Cosine
open Idealize.ShloMosaic Idealize.ShloMosaic.ValueIdx

/-- The lane sum of a 64 × 256 array, read at row b: the sum of the row's 256 entries. -/
theorem laneSum_apply (v : FVec Ideal S64x256 .f32) (hacc : (0x00000000#32 : BitVec 32) = 0x00000000#32) (b : Fin 64) :
    multiReduction .add [1] S64 v 0x00000000#32 reduces_S64x256_S64 (.inl rfl) hacc (ix1 b) = ∑ d : Fin 256, v (ix2 b d) := by
  refine (Ideal.multiReduction_add_single v 0x00000000#32 reduces_S64x256_S64 (.inl rfl) hacc (ix1 b)).trans ?_
  refine Finset.sum_congr rfl fun d _ => congrArg v ?_
  funext a
  apply Fin.ext
  rw [Shape.Reduces.lift_val]
  unfold Shape.Reduces.liftVal
  match a with
  | ⟨0, _⟩ => rfl
  | ⟨1, _⟩ => rfl

/-- A vector of 64 numbers written as a column: entry (b, 0) is entry b. -/
theorem column_apply {α : Type} (v : S64.Idx → α) (b : Fin 64) :
    shapeCast S64x1 v shapeCasts_S64_S64x1 (ix2 b (0 : Fin 1)) = v (ix1 b) :=
  shapeCast_apply v shapeCasts_S64_S64x1 _ _ (by
    rw [Shape.rowMajor_val_one, Shape.rowMajor_val_two]
    show b.val = b.val * 1 + 0
    omega)

/-- A column repeated along 256 lanes: entry (b, d) is the column's entry (b, 0). -/
theorem spread_apply {α : Type} (v : S64x1.Idx → α) (b : Fin 64) (d : Fin 256) :
    broadcastTo S64x256 v broadcasts_S64x1_S64x256 (ix2 b d) = v (ix2 b (0 : Fin 1)) := by
  refine broadcastTo_apply v broadcasts_S64x1_S64x256 (ix2 b d) (ix2 b (0 : Fin 1)) fun ax => ?_
  match ax with
  | ⟨0, _⟩ => rfl
  | ⟨1, _⟩ => rfl

abbrev tileDot := dot_S64x256_S2048x256_S64x2048_1_1_0_0_n_n

theorem lhs_tileDot_0 (j : S64x2048.Idx) (q : dot_S64x256_S2048x256_S64x2048_1_1_0_0_n_n.contr.Idx) :
    (dot_S64x256_S2048x256_S64x2048_1_1_0_0_n_n.lhsIdx j q 0).val = (j 0).val := by
  unfold DotDims.lhsIdx
  rw [dif_neg (show ¬(0 : Fin S64x256.rank) ∈ dot_S64x256_S2048x256_S64x2048_1_1_0_0_n_n.lhsBatch by decide), dif_pos (show (0 : Fin S64x256.rank) ∈ dot_S64x256_S2048x256_S64x2048_1_1_0_0_n_n.lhsNonContracting by decide)]
  rfl
theorem lhs_tileDot_1 (j : S64x2048.Idx) (q : dot_S64x256_S2048x256_S64x2048_1_1_0_0_n_n.contr.Idx) :
    (dot_S64x256_S2048x256_S64x2048_1_1_0_0_n_n.lhsIdx j q 1).val = (q ⟨0, by decide⟩).val :=
  dot_S64x256_S2048x256_S64x2048_1_1_0_0_n_n.lhsIdx_val_of_single rfl j q
theorem rhs_tileDot_0 (j : S64x2048.Idx) (q : dot_S64x256_S2048x256_S64x2048_1_1_0_0_n_n.contr.Idx) :
    (dot_S64x256_S2048x256_S64x2048_1_1_0_0_n_n.rhsIdx j q 0).val = (j 1).val := by
  unfold DotDims.rhsIdx
  rw [dif_neg (show ¬(0 : Fin S2048x256.rank) ∈ dot_S64x256_S2048x256_S64x2048_1_1_0_0_n_n.rhsBatch by decide), dif_pos (show (0 : Fin S2048x256.rank) ∈ dot_S64x256_S2048x256_S64x2048_1_1_0_0_n_n.rhsNonContracting by decide)]
  rfl
theorem rhs_tileDot_1 (j : S64x2048.Idx) (q : dot_S64x256_S2048x256_S64x2048_1_1_0_0_n_n.contr.Idx) :
    (dot_S64x256_S2048x256_S64x2048_1_1_0_0_n_n.rhsIdx j q 1).val = (q ⟨0, by decide⟩).val :=
  dot_S64x256_S2048x256_S64x2048_1_1_0_0_n_n.rhsIdx_val_of_single rfl j q

/-- The matrix product of a 64 × 256 array with a 2048 × 256 array over the 256 features, from a zero accumulator, read at
    (b, n): the inner product of row b of the first with row n of the second. -/
theorem tileDot_apply (l : FVec Ideal S64x256 .f32) (r : FVec Ideal S2048x256 .f32) (b : Fin 64) (n : Fin 2048) :
    matmul dot_S64x256_S2048x256_S64x2048_1_1_0_0_n_n none l r (constant (F := Ideal) S64x2048 .f32 0x00000000#32) (ix2 b n)
      = ∑ d : Fin 256, l (ix2 b d) * r (ix2 n d) := by
  simp only [matmul]
  rw [Ideal.matmul_constant_zero_apply, ← Equiv.sum_comp (ValueIdx.contrEquiv1 dot_S64x256_S2048x256_S64x2048_1_1_0_0_n_n 256 rfl rfl).symm]
  refine Finset.sum_congr rfl fun k _ => ?_
  have hk := ValueIdx.contrEquiv1_symm_val dot_S64x256_S2048x256_S64x2048_1_1_0_0_n_n 256 rfl rfl k
  have el : dot_S64x256_S2048x256_S64x2048_1_1_0_0_n_n.lhsIdx (ix2 b n) ((ValueIdx.contrEquiv1 dot_S64x256_S2048x256_S64x2048_1_1_0_0_n_n 256 rfl rfl).symm k) = ix2 b k := funext fun a => Fin.ext (by
    match a with
    | ⟨0, _⟩ => exact lhs_tileDot_0 _ _
    | ⟨1, _⟩ => exact (lhs_tileDot_1 _ _).trans hk)
  have er : dot_S64x256_S2048x256_S64x2048_1_1_0_0_n_n.rhsIdx (ix2 b n) ((ValueIdx.contrEquiv1 dot_S64x256_S2048x256_S64x2048_1_1_0_0_n_n 256 rfl rfl).symm k) = ix2 n k := funext fun a => Fin.ext (by
    match a with
    | ⟨0, _⟩ => exact rhs_tileDot_0 _ _
    | ⟨1, _⟩ => exact (rhs_tileDot_1 _ _).trans hk)
  rw [el, er]

/-- THE TILE, ENTRY BY ENTRY: entry (0, b, n) of the body's result is the similarity of row b of the feature tile with row n
    of the memory tile. -/
theorem tile_apply (x0 : Vec Ideal S1x64x256 .f32) (x1 : Vec Ideal S1x2048x256 .f32) (b : Fin 64) (n : Fin 2048) :
    k0_pay1 (F := Ideal) x0 x1 (ix3 (0 : Fin 1) b n)
      = cosRow (fun d => x0 (ix3 (0 : Fin 1) b d)) (fun d => x1 (ix3 (0 : Fin 1) n d)) := by
  unfold k0_pay1
  refine (shapeCast_ab_1ab_apply _ shapeCasts_S64x2048_S1x64x2048 (0 : Fin 1) b n).trans ?_
  refine (tileDot_apply _ _ b n).trans ?_
  unfold cosRow
  refine Finset.sum_congr rfl fun d _ => ?_
  refine congrArg₂ (· * ·) ?_ (shapeCast_1ab_ab_apply x1 shapeCasts_S1x2048x256_S2048x256 n d)
  -- the scaled feature row at lane d
  unfold unitRow
  refine congrArg₂ Ideal.div (shapeCast_1ab_ab_apply x0 shapeCasts_S1x64x256_S64x256 b d) ?_
  refine (spread_apply _ b d).trans ?_
  refine congrArg₂ max (congrArg Ideal.sqrt ?_) rfl
  refine (column_apply _ b).trans ?_
  refine (laneSum_apply _ rfl b).trans ?_
  unfold sqLen
  refine Finset.sum_congr rfl fun d' _ => ?_
  exact congrArg₂ (· * ·) (shapeCast_1ab_ab_apply x0 shapeCasts_S1x64x256_S64x256 b d') (shapeCast_1ab_ab_apply x0 shapeCasts_S1x64x256_S64x256 b d')

end Cert.KernelIdeal.TileSims

end
-- ==== Proof.KernelIdealSims.lean ====
/-
  The idealized kernel's result array is the similarity array of its arguments.
  The grid has 6 × 49 points; point t handles part k = t / 49 and the tile of 2048 memory rows number t mod 49. It finds
  in its staging buffers feature block k and memory rows [2048·(t mod 49), …) of part k — for the last tile of a part
  only 1696 rows lie inside the bank, and the buffer's other 352 rows hold numbers nothing names — and it leaves in
  the result buffer the 64 × 2048 tile of similarities. The write-back moves the columns inside the result array
  (all 2048, or the first 1696). A column of the tile depends on its own memory row alone, so the columns written back
  never see the unnamed rows: what point t writes back is block t of the similarity array. The blocks of all points
  cover the result array, so that is what the array holds at the end.
-/
import proofs.«180536_g3410204033328_cont_8to1_b_1400_4_alg».proof.Proof.KernelIdealBody
import proofs.«180536_g3410204033328_cont_8to1_b_1400_4_alg».proof.Proof.TileSims
import proofs.«180536_g3410204033328_cont_8to1_b_1400_4_alg».proof.Proof.CosineSpec
import Idealize.ShloMosaic.Lib.Pipeline.Frame
import Idealize.ShloMosaic.Lib.Pipeline.Value

set_option maxRecDepth 16384

noncomputable section

namespace Cert.KernelIdeal.Sims

open Cert.KernelIdeal Cert.KernelIdeal.Gen Cert.KernelIdeal.Tile Cert.KernelIdeal.TileSims Cert.Cosine
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The similarity array of the launch contents of the two arguments. -/
abbrev simsOf (c : Dev nD) : Buf (Elt Ideal) ((c : Thread nD τ).loc main_v0) :=
  sims (m ((c : Thread nD τ).loc main_arg0)) (m ((c : Thread nD τ).loc main_arg1))

/-! ## The schedule, decided over the grid -/

/-- Point t works on part t / 49 and memory tile t mod 49; the last tile of a part keeps 1696 of its 2048 rows (columns
    of the result) inside the arrays. -/
theorem grid_facts : ∀ t : Fin cfg0.N,
    win0_0.index t (0 : Fin 3) = t.val / 49 ∧ win0_0.index t (1 : Fin 3) = 0 ∧ win0_0.index t (2 : Fin 3) = 0
    ∧ win0_1.index t (0 : Fin 3) = t.val / 49 ∧ win0_1.index t (1 : Fin 3) = t.val % 49 ∧ win0_1.index t (2 : Fin 3) = 0
    ∧ win0_2.index t (0 : Fin 3) = t.val / 49 ∧ win0_2.index t (1 : Fin 3) = 0 ∧ win0_2.index t (2 : Fin 3) = t.val % 49
    ∧ win0_1.xsize (grid0.coords t) (0 : Fin 3) = 1 ∧ win0_1.xsize (grid0.coords t) (1 : Fin 3) = (if t.val % 49 = 48 then 1696 else 2048)
    ∧ win0_1.xsize (grid0.coords t) (2 : Fin 3) = 256
    ∧ win0_2.xsize (grid0.coords t) (0 : Fin 3) = 1 ∧ win0_2.xsize (grid0.coords t) (1 : Fin 3) = 64
    ∧ win0_2.xsize (grid0.coords t) (2 : Fin 3) = (if t.val % 49 = 48 then 1696 else 2048) :=
  (by decide +kernel : ∀ t : Fin grid0.N, _)

/-! ## The proof data -/

/-- After the body at point t: the feature buffer holds feature block t; the memory buffer holds memory block t on the
    rows inside the bank; the result buffer holds block t of the similarity array on the columns inside the result
    array. (Outside those parts the two loose windows' contents are not stated; zero fills them out here.) -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => win0_2.fill (grid0.coords t) (fun _ => (0 : EReal)) ((win0_2.blk t).view.read (Elt Ideal) (simsOf m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) :
    (dats m 0 c).after 1 t = win0_1.fill (grid0.coords t) (fun _ => (0 : EReal)) (iblk m c 1 t) := by dsimp only [dats]
theorem after2 (c : Dev nD) (t : Fin cfg0.N) :
    (dats m 0 c).after 2 t = win0_2.fill (grid0.coords t) (fun _ => (0 : EReal)) ((win0_2.blk t).view.read (Elt Ideal) (simsOf m c)) := by
  dsimp only [dats]

/-- The feature buffer holds feature block t at every point, fetched there or kept from the point before. -/
theorem before0 (c : Dev nD) (t : Fin cfg0.N) (d) : (dats m 0 c).before 0 t d = iblk m c 0 t :=
  before0_0_of m (dats m 0 c) (A_eq m c 0) (after0 m c) t d

/-- The memory buffer is fetched at every point: memory block t on the rows inside the bank, anything on the others. -/
theorem before1 (c : Dev nD) (t : Fin cfg0.N) (d) :
    (dats m 0 c).before 1 t d = win0_1.fill (grid0.coords t) d (iblk m c 1 t) := by
  unfold Dat.before; rw [if_pos (fetch0_1 t)]; rfl

/-- The result buffer, written back at every point, comes to the body holding anything. -/
theorem before2 (c : Dev nD) (t : Fin cfg0.N) (d) : (dats m 0 c).before 2 t d = d :=
  (dats m 0 c).before_out_reset 2 rfl t
    (by by_cases h : t.val = 0
        · exact .inl h
        · exact .inr ⟨h, flush0_2 _⟩) d

/-! ## One point: the part of the tile that is written back -/

/-- What the body leaves in the result buffer, on the columns inside the result array, is block t of the similarity
    array — whatever the memory buffer held on its rows outside the bank. -/
theorem tile_inside (c : Dev nD) (t : Fin cfg0.N) (d1 : S1x2048x256.Idx → EReal) :
    win0_2.cut (grid0.coords t) (simTile (F := Ideal) (iblk m c 0 t) (win0_1.fill (grid0.coords t) d1 (iblk m c 1 t)))
      = (win0_2.blk t).view.read (Elt Ideal) (simsOf m c) := by
  obtain ⟨a0, a1, a2, b0, b1, b2, c0, c1, c2, x0, x1, x2, y0, y1, y2⟩ := grid_facts t
  have hN : t.val < 294 := lt_of_lt_of_eq (show t.val < grid0.N from t.isLt) N_0
  funext j
  have hj0 : (j 0).val < win0_2.xsize (grid0.coords t) (0 : Fin 3) := (j 0).isLt
  have hj1 : (j 1).val < win0_2.xsize (grid0.coords t) (1 : Fin 3) := (j 1).isLt
  have hj2 : (j 2).val < win0_2.xsize (grid0.coords t) (2 : Fin 3) := (j 2).isLt
  rw [y0] at hj0; rw [y1] at hj1; rw [y2] at hj2
  have hj2' : (j 2).val < 2048 := by split at hj2 <;> omega
  have hNN : (t.val % 49) * 2048 + (j 2).val < 100000 := by split at hj2 <;> omega
  -- the coordinates, at their literal types
  let b : Fin 64 := ⟨(j 1).val, hj1⟩
  let n : Fin 2048 := ⟨(j 2).val, hj2'⟩
  let K : Fin 6 := ⟨t.val / 49, by omega⟩
  let N : Fin 100000 := ⟨(t.val % 49) * 2048 + (j 2).val, hNN⟩
  have hx : win0_2.xinj (grid0.coords t) j = ix3 (0 : Fin 1) b n := funext fun a => Fin.ext (by
    match a with
    | ⟨0, _⟩ => show (j 0).val = 0; omega
    | ⟨1, _⟩ => rfl
    | ⟨2, _⟩ => rfl)
  have he : (win0_2.blk t).view.emb j = ix3 K b N := funext fun a => Fin.ext (by
    match a with
    | ⟨0, _⟩ => show win0_2.index t (0 : Fin 3) * 1 + 1 * (j 0).val = t.val / 49; omega
    | ⟨1, _⟩ => show win0_2.index t (1 : Fin 3) * 64 + 1 * (j 1).val = (j 1).val; omega
    | ⟨2, _⟩ => show win0_2.index t (2 : Fin 3) * 2048 + 1 * (j 2).val = (t.val % 49) * 2048 + (j 2).val; omega)
  show simTile (F := Ideal) (iblk m c 0 t) (win0_1.fill (grid0.coords t) d1 (iblk m c 1 t)) (win0_2.xinj (grid0.coords t) j)
    = simsOf m c ((win0_2.blk t).view.emb j)
  rw [hx, he, simTile_eq]
  refine (tile_apply _ _ b n).trans ?_
  show _ = cosRow (featRow (m ((c : Thread nD τ).loc main_arg0)) K b) (memRow (m ((c : Thread nD τ).loc main_arg1)) K N)
  refine cosRow_congr (fun d => ?_) (fun d => ?_)
  · -- row b of the feature tile is feature row (K, b)
    show V m c main_arg0 ((win0_0.blk t).view.emb (ix3 (0 : Fin 1) b d)) = V m c main_arg0 (ix3 K b d)
    refine congrArg _ (funext fun a => Fin.ext ?_)
    match a with
    | ⟨0, _⟩ => show win0_0.index t (0 : Fin 3) * 1 + 1 * 0 = t.val / 49; omega
    | ⟨1, _⟩ => show win0_0.index t (1 : Fin 3) * 64 + 1 * (j 1).val = (j 1).val; omega
    | ⟨2, _⟩ => show win0_0.index t (2 : Fin 3) * 256 + 1 * d.val = d.val; omega
  · -- row n of the memory tile lies inside the bank, and is memory row (K, N)
    have hmv : win0_1.moved (grid0.coords t) (ix3 (0 : Fin 1) n d) = true := (win0_1.moved_iff _ _).mpr fun a => by
      match a with
      | ⟨0, _⟩ => show 0 < win0_1.xsize (grid0.coords t) (0 : Fin 3); omega
      | ⟨1, _⟩ => show (j 2).val < win0_1.xsize (grid0.coords t) (1 : Fin 3); rw [x1]; exact hj2
      | ⟨2, _⟩ => show d.val < win0_1.xsize (grid0.coords t) (2 : Fin 3); have := d.isLt; omega
    unfold Window.fill
    rw [dif_pos hmv]
    show V m c main_arg1 ((win0_1.blk t).view.emb _) = V m c main_arg1 (ix3 K N d)
    refine congrArg _ (funext fun a => Fin.ext ?_)
    match a with
    | ⟨0, _⟩ => show win0_1.index t (0 : Fin 3) * 1 + 1 * 0 = t.val / 49; omega
    | ⟨1, _⟩ => show win0_1.index t (1 : Fin 3) * 2048 + 1 * (j 2).val = (t.val % 49) * 2048 + (j 2).val; omega
    | ⟨2, _⟩ => show win0_1.index t (2 : Fin 3) * 256 + 1 * d.val = d.val; omega

/-! ## The body obligation -/

/-- The body at point t: from the three buffers as the pipeline hands them over to the three buffers as it takes them
    back — the feature buffer as found, the memory buffer as found (so: memory block t inside the bank), the result buffer
    at the tile of similarities (so: block t of the similarity array inside the result array). -/
theorem sound_point (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d)))
      ⊢ wp frame (wpE (defs₀ (F := Ideal)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ (∃ d, owns (c : Thread nD τ) (st0_1 t) fullShare ((cfg0.win 1).fill (cfg0.grid.coords t) d ((cfg0.win 1).cut (cfg0.grid.coords t) ((dats m 0 c).after 1 t))))
            ∗ (∃ d, owns (c : Thread nD τ) (st0_2 t) fullShare ((cfg0.win 2).fill (cfg0.grid.coords t) d ((cfg0.win 2).cut (cfg0.grid.coords t) ((dats m 0 c).after 2 t)))))) := by
  unfold bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0 m c t d0, before1 m c t d1, before2 m c t d2]
  iapply (sound_kernel (F := Ideal) c Set.univ (grid0.coords t) _ _ _ _ _ _ (iblk m c 0 t) (win0_1.fill (grid0.coords t) d1 (iblk m c 1 t)) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · rw [after0]; iexact H0
  isplitl [H1]
  · iexists d1
    change _ ⊢ owns (c : Thread nD τ) (st0_1 t) fullShare (win0_1.fill (grid0.coords t) d1 (win0_1.cut (grid0.coords t) ((dats m 0 c).after 1 t)))
    rw [after1, win0_1.cut_fill]; try iexact H1
  · iexists simTile (F := Ideal) (iblk m c 0 t) (win0_1.fill (grid0.coords t) d1 (iblk m c 1 t))
    change _ ⊢ owns (c : Thread nD τ) (st0_2 t) fullShare (win0_2.fill (grid0.coords t) _ (win0_2.cut (grid0.coords t) ((dats m 0 c).after 2 t)))
    rw [after2, win0_2.cut_fill, ← tile_inside m c t d1, win0_2.fill_cut]; try iexact H2

/-- The library's obligation for the pipeline's body, at every point. -/
theorem body_obligation (c : Dev nD) : BodyObligationLoose (dats m 0 c) (defs₀ (F := Ideal)) Variants.none () Set.univ := fun t => by
  rw [bigSep_W0, bigSep_W0]
  exact sound_point m c t

/-! ## The run -/

set_option backward.isDefEq.respectTransparency.types false in
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := fun _ _ => rfl) (hΦ := fun _ _ => rfl)

/-! ## From the points' blocks to the array -/

/-- What point t writes back is block t of the similarity array. -/
theorem flushed_eq (c : Dev nD) (t : Fin cfg0.N) :
    (dats m 0 c).flushed 2 t = ((cfg0.win 2).blk t).view.read (Elt Ideal) (simsOf m c) := by
  show win0_2.cut (grid0.coords t) ((dats m 0 c).after 2 t) = _
  rw [after2]
  exact win0_2.cut_fill _ _ _

/-- An index of the result array is in point t's block iff each coordinate is in the block's range inside the array. -/
theorem mem_blk (t : Fin cfg0.N) (i : S6x64x100000.Idx) :
    i ∈ ((cfg0.win 2).blk t).view.set ↔ ∀ a : Fin 3, win0_2.index t a * S1x64x2048.size a ≤ (i a).val
      ∧ (i a).val < win0_2.index t a * S1x64x2048.size a + win0_2.xsize (grid0.coords t) a := by
  show i ∈ ((View.whole main_v0).slice (win0_2.rect t)).set ↔ _
  rw [View.set_slice_whole, Rect.mem_set_unit]
  exact Iff.rfl

/-- Every index (k, b, n) of the result array is in the block of the point 49·k + n / 2048. -/
theorem covered (i : S6x64x100000.Idx) :
    ∃ t : Fin cfg0.N, (cfg0.win 2).flush t = true ∧ i ∈ ((cfg0.win 2).blk t).view.set := by
  have h0 : (i 0).val < 6 := (i 0).isLt
  have h1 : (i 1).val < 64 := (i 1).isLt
  have h2 : (i 2).val < 100000 := (i 2).isLt
  have hlt : (i 0).val * 49 + (i 2).val / 2048 < cfg0.N := lt_of_lt_of_eq (show (i 0).val * 49 + (i 2).val / 2048 < 294 by omega) N_0.symm
  obtain ⟨a0, a1, a2, b0, b1, b2, c0, c1, c2, x0, x1, x2, y0, y1, y2⟩ := grid_facts ⟨(i 0).val * 49 + (i 2).val / 2048, hlt⟩
  refine ⟨⟨(i 0).val * 49 + (i 2).val / 2048, hlt⟩, flush0_2 _, (mem_blk _ i).mpr fun a => ?_⟩
  match a with
  | ⟨0, _⟩ =>
    show win0_2.index _ (0 : Fin 3) * 1 ≤ (i 0).val ∧ (i 0).val < win0_2.index _ (0 : Fin 3) * 1 + win0_2.xsize _ (0 : Fin 3)
    rw [c0, y0]; dsimp only; omega
  | ⟨1, _⟩ =>
    show win0_2.index _ (1 : Fin 3) * 64 ≤ (i 1).val ∧ (i 1).val < win0_2.index _ (1 : Fin 3) * 64 + win0_2.xsize _ (1 : Fin 3)
    rw [c1, y1]; omega
  | ⟨2, _⟩ =>
    show win0_2.index _ (2 : Fin 3) * 2048 ≤ (i 2).val ∧ (i 2).val < win0_2.index _ (2 : Fin 3) * 2048 + win0_2.xsize _ (2 : Fin 3)
    rw [c2, y2]; dsimp only; split <;> omega

/-- The result array after the run is the similarity array. -/
theorem final (c : Dev nD) : (dats m 0 c).arrAt 2 cfg0.N = simsOf m c :=
  (dats m 0 c).arrAt_eq_of_cover 2 (simsOf m c) (fun t _ => flushed_eq m c t) covered

/-- Every weakly fair execution of @main ends, nothing faulting, with the result array at the similarity array of the
    arguments and the arguments unchanged. -/
theorem run : θ_run defs (onTc (τ := τ) (main (F := Ideal))) ⟨m, fun _ => 0, ρ⟩ fun r => ∀ c : Dev nD,
      r.2.mem ((c : Thread nD τ).loc main_v0) = simsOf m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Sims

end
-- ==== Proof.RefSims.lean ====
/-
  The reference computes the similarity function.
  Its steps, read at one output index (k, b, n): the squares of feature row (k, b) are summed (from zero), the root
  taken, the larger of that and the floor chosen, every entry of the row divided by it, and the quotient row
  contracted with memory row (k, n) over the 256 features. That is the similarity of the two rows, term by term.
-/
import proofs.«180536_g3410204033328_cont_8to1_b_1400_4_alg».proof.Proof.Gen.ReferenceIdeal.Read
import proofs.«180536_g3410204033328_cont_8to1_b_1400_4_alg».proof.Proof.CosineSpec

noncomputable section

namespace Cert.ReferenceIdeal.Sims

open Cert.ReferenceIdeal Cert.ReferenceIdeal.Read Cert.Cosine
open Idealize.ShloMosaic Idealize.ShloMosaic.ValueIdx

/-- The feature index the contraction reads at step `d` is entry `d` of row (k, b). -/
theorem lidx_eq (k : Fin 6) (b : Fin 64) (n : Fin 100000) (d : Fin 256) : lidx_main_v5 (ix3 k b n) d = ix3 k b d :=
  funext fun a => Fin.ext (by match a with | ⟨0, _⟩ => rfl | ⟨1, _⟩ => rfl | ⟨2, _⟩ => rfl)

/-- The memory index it reads is entry `d` of row (k, n). -/
theorem ridx_eq (k : Fin 6) (b : Fin 64) (n : Fin 100000) (d : Fin 256) : ridx_main_v5 (ix3 k b n) d = ix3 k n d :=
  funext fun a => Fin.ext (by match a with | ⟨0, _⟩ => rfl | ⟨1, _⟩ => rfl | ⟨2, _⟩ => rfl)

/-- The row whose squares are summed for the divisor of entry (k, b, d) is row (k, b). -/
theorem sq_idx_eq (k : Fin 6) (b : Fin 64) (d d' : Fin 256) :
    idx_main_call0_v1 (idx_main_call0_v2 (idx_main_v3 (ix3 k b d))) d' = ix3 k b d' :=
  funext fun a => Fin.ext (by match a with | ⟨0, _⟩ => rfl | ⟨1, _⟩ => rfl | ⟨2, _⟩ => rfl)

/-- The normalized feature array at (k, b, d) is entry `d` of row (k, b) scaled to unit length. -/
theorem normalized_apply (f : FVec Ideal S6x64x256 .f32) (k : Fin 6) (b : Fin 64) (d : Fin 256) :
    val_main_v4 (F := Ideal) f (ix3 k b d) = unitRow (featRow f k b) d := by
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, sq_idx_eq, Ideal.hostDivf_def, Ideal.maximumf_def, Ideal.hostUnary_sqrt_def,
    Ideal.mulf_def, Ideal.ofBits_def, Ideal.ofBits_zero_f32, zero_add]
  rfl

/-- The reference's result array is the similarity function of its two arguments. -/
theorem result_eq (f : FVec Ideal S6x64x256 .f32) (mem : FVec Ideal S6x100000x256 .f32) :
    val_main_v5 (F := Ideal) f mem = sims f mem := by
  funext i
  obtain ⟨k, b, n, rfl⟩ : ∃ (k : Fin 6) (b : Fin 64) (n : Fin 100000), i = ix3 k b n := ⟨i 0, i 1, i 2, eq_ix3 i⟩
  rw [val_main_v5_apply]
  show _ = cosRow (featRow f k b) (memRow mem k n)
  unfold cosRow
  refine Finset.sum_congr rfl fun d _ => ?_
  rw [lidx_eq, ridx_eq, normalized_apply]

end Cert.ReferenceIdeal.Sims

end
-- ==== Proof.lean ====
/-
  Per-part cosine similarity: a tiled kernel against a batched reference, over the extended reals.

  Both programs take features f (6 × 64 × 256) and a memory bank mem (6 × 100000 × 256) and return sims (6 × 64 × 100000),

      sims[k, b, n] = Σ_d ( f[k, b, d] / max( √(Σ_d' f[k, b, d']²), ε ) ) · mem[k, n, d],        ε the float nearest 1e-12.

  The reference does it in one piece: squares, a sum over the features, root, maximum with ε, quotient, one batched
  contraction. The kernel walks a 6 × 49 grid; at point (k, j) it scales the 64 rows of part k the same way and contracts
  them with memory rows 2048·j … 2048·j + 2047 of part k on the matrix unit, from a zero accumulator. No law of arithmetic
  is needed to compare the two: entry by entry they are the same sum of the same quotients times the same numbers, so the
  finiteness of the inputs is never used. What needs an argument is the tiling. 100000 is not a multiple of 2048: the
  49th tile of every part has 1696 rows inside the bank, and the staging buffer's other 352 rows hold numbers nothing
  names. Column n of a tile of similarities is made from memory row n alone, so those rows only reach the 352 columns that
  the write-back drops; every column that is written back is the right one, and the written-back blocks cover the result.

  The claims:
  · the word-level kernel runs to its end and leaves f and mem alone — said without naming anything the body computes,
    because at the word level the matrix unit's result is not a column-by-column function of its operands;
  · the idealized kernel runs, leaves f and mem alone, and ends with the result array equal to sims f mem;
  · the idealized reference runs, leaves f and mem alone, and ends with its result equal to sims f mem;
  · the idealization rewrote nothing, so there is nothing to preserve.
-/
import proofs.«180536_g3410204033328_cont_8to1_b_1400_4_alg».proof.Defs
import proofs.«180536_g3410204033328_cont_8to1_b_1400_4_alg».proof.Proof.Gen.Kernel
import proofs.«180536_g3410204033328_cont_8to1_b_1400_4_alg».proof.Proof.Gen.Kernel.Skeleton
import proofs.«180536_g3410204033328_cont_8to1_b_1400_4_alg».proof.Proof.Gen.Kernel.Launch
import proofs.«180536_g3410204033328_cont_8to1_b_1400_4_alg».proof.Proof.Gen.Kernel.Points
import proofs.«180536_g3410204033328_cont_8to1_b_1400_4_alg».proof.Proof.Gen.Kernel.Frame
import proofs.«180536_g3410204033328_cont_8to1_b_1400_4_alg».proof.Proof.Gen.KernelIdeal
import proofs.«180536_g3410204033328_cont_8to1_b_1400_4_alg».proof.Proof.Gen.KernelIdeal.Skeleton
import proofs.«180536_g3410204033328_cont_8to1_b_1400_4_alg».proof.Proof.Gen.KernelIdeal.Launch
import proofs.«180536_g3410204033328_cont_8to1_b_1400_4_alg».proof.Proof.Gen.KernelIdeal.Points
import proofs.«180536_g3410204033328_cont_8to1_b_1400_4_alg».proof.Proof.Gen.KernelIdeal.Frame
import proofs.«180536_g3410204033328_cont_8to1_b_1400_4_alg».proof.Proof.Gen.ReferenceIdeal
import proofs.«180536_g3410204033328_cont_8to1_b_1400_4_alg».proof.Proof.Gen.Pre_finite_inputs
import proofs.«180536_g3410204033328_cont_8to1_b_1400_4_alg».proof.Proof.Gen.ReferenceIdeal.Run
import proofs.«180536_g3410204033328_cont_8to1_b_1400_4_alg».proof.Proof.Gen.ReferenceIdeal.Read
import proofs.«180536_g3410204033328_cont_8to1_b_1400_4_alg».proof.Proof.KernelFrame
import proofs.«180536_g3410204033328_cont_8to1_b_1400_4_alg».proof.Proof.KernelIdealSims
import proofs.«180536_g3410204033328_cont_8to1_b_1400_4_alg».proof.Proof.RefSims
import Idealize.ShloMosaic.Adequacy
import Idealize.ShloMosaic.Init

noncomputable section

namespace Cert.Proof

open Idealize.ShloMosaic Idealize.ShloMosaic.TcCoe Idealize.SL.Sem

/-- The word-level kernel runs to its end, nothing faulting, and its arguments are unchanged. -/
theorem frame_kernel : Cert.frame_Kernel := fun m ρ _ => Cert.Kernel.Tile.frame (F := Bits) m ρ

/-- So does the idealized kernel: its run to the similarity array, the result forgotten. -/
theorem frame_kernelIdeal : Cert.frame_KernelIdeal := fun m ρ _ =>
  (θ_run Cert.KernelIdeal.defs _ _).mono (fun _ h c => (h c).2) (Cert.KernelIdeal.Sims.run m ρ)

/-- And the idealized reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the similarity array of those arguments. -/
theorem algebraic : Cert.algebraic_KernelIdeal_ReferenceIdeal := by
  intro m ρ m' ρ' _ hagree
  refine ⟨fun c => Cert.KernelIdeal.Sims.simsOf m c, Cert.KernelIdeal.Sims.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v5_eq _ _).trans (Cert.ReferenceIdeal.Sims.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
